-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S50x32x256 : Shape := ⟨3, ![50, 32, 256]⟩
abbrev S50x1x32 : Shape := ⟨3, ![50, 1, 32]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S50x32x256 : S_.BroadcastsInDim S50x32x256 (![] : Fin 0 → Fin S50x32x256.rank)
  reducesTo_S50x32x256_S_d0_1_2 : S50x32x256.ReducesTo [0, 1, 2] S_
  bcast_S_S50x1x32 : S_.BroadcastsInDim S50x1x32 (![] : Fin 0 → Fin S50x1x32.rank)
  reducesTo_S50x1x32_S_d0_1_2 : S50x1x32.ReducesTo [0, 1, 2] S_

variable [Facts]

def fn {F : FTy → Type} [FloatOps F] (main_arg0 : FVec F S8192x256 .f32) (main_arg1 : FVec F S50x32x256 .f32) (main_arg2 : FVec F S50x1x32 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S50x32x256 .f32 := Host.absf main_arg1
  let main_cst_0 : FVec F S_ .f32 := constant S_ .f32 0x7F800000#32
  let main_v5 : FVec F S50x32x256 .f32 := broadcastInDim S50x32x256 ![] bcast_S_S50x32x256 main_cst_0
  let main_v6 : IVec S50x32x256 1 := cmpf .olt main_v4 main_v5
  let main_c_1 : IVec S_ 1 := constantI S_ 1 1#1
  let main_v7 : IVec S_ 1 := (fun x v => Host.reduce IntOp.andi x v reducesTo_S50x32x256_S_d0_1_2 h_S_) main_v6 main_c_1
  let main_v8 : IVec S_ 1 := andi main_v3 main_v7
  let main_v9 : FVec F S50x1x32 .f32 := Host.absf main_arg2
  let main_cst_2 : FVec F S_ .f32 := constant S_ .f32 0x7F800000#32
  let main_v10 : FVec F S50x1x32 .f32 := broadcastInDim S50x1x32 ![] bcast_S_S50x1x32 main_cst_2
  let main_v11 : IVec S50x1x32 1 := cmpf .olt main_v9 main_v10
  let main_c_3 : IVec S_ 1 := constantI S_ 1 1#1
  let main_v12 : IVec S_ 1 := (fun x v => Host.reduce IntOp.andi x v reducesTo_S50x1x32_S_d0_1_2 h_S_) main_v11 main_c_3
  let main_v13 : IVec S_ 1 := andi main_v8 main_v12
  main_v13
-- ==== Kernel.lean ====
abbrev S8192x256 : Shape := ⟨2, ![8192, 256]⟩
abbrev S50x32x256 : Shape := ⟨3, ![50, 32, 256]⟩
abbrev S50x1x32 : Shape := ⟨3, ![50, 1, 32]⟩
abbrev S_ : Shape := ⟨0, ![]⟩
abbrev S50x256 : Shape := ⟨2, ![50, 256]⟩
abbrev S50 : Shape := ⟨1, ![50]⟩
abbrev S50x1 : Shape := ⟨2, ![50, 1]⟩
abbrev S50x1x256 : Shape := ⟨3, ![50, 1, 256]⟩
abbrev S256x50x32 : Shape := ⟨3, ![256, 50, 32]⟩
abbrev S256x1600 : Shape := ⟨2, ![256, 1600]⟩
abbrev S1x1600 : Shape := ⟨2, ![1, 1600]⟩
abbrev S8192x1600 : Shape := ⟨2, ![8192, 1600]⟩
abbrev S512x256 : Shape := ⟨2, ![512, 256]⟩
abbrev S512x1600 : Shape := ⟨2, ![512, 1600]⟩
abbrev S8192x50x32 : Shape := ⟨3, ![8192, 50, 32]⟩

abbrev nBuf : Space → Nat
  | .hbm => 38
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S50x32x256, .f32⟩
  | .hbm, ⟨2, _⟩ => ⟨S50x1x32, .f32⟩
  | .hbm, ⟨3, _⟩ => ⟨S50x32x256, .f32⟩
  | .hbm, ⟨4, _⟩ => ⟨S_, .f32⟩
  | .hbm, ⟨5, _⟩ => ⟨S50x256, .f32⟩
  | .hbm, ⟨6, _⟩ => ⟨S_, .f32⟩
  | .hbm, ⟨7, _⟩ => ⟨S50x256, .f32⟩
  | .hbm, ⟨8, _⟩ => ⟨S50x256, .f32⟩
  | .hbm, ⟨9, _⟩ => ⟨S_, .f32⟩
  | .hbm, ⟨10, _⟩ => ⟨S50, .f32⟩
  | .hbm, ⟨11, _⟩ => ⟨S_, .f32⟩
  | .hbm, ⟨12, _⟩ => ⟨S50, .f32⟩
  | .hbm, ⟨13, _⟩ => ⟨S50, .f32⟩
  | .hbm, ⟨14, _⟩ => ⟨S50x1, .f32⟩
  | .hbm, ⟨15, _⟩ => ⟨S50x256, .f32⟩
  | .hbm, ⟨16, _⟩ => ⟨S50x256, .f32⟩
  | .hbm, ⟨17, _⟩ => ⟨S50x256, .f32⟩
  | .hbm, ⟨18, _⟩ => ⟨S_, .f32⟩
  | .hbm, ⟨19, _⟩ => ⟨S50, .f32⟩
  | .hbm, ⟨20, _⟩ => ⟨S50x1, .f32⟩
  | .hbm, ⟨21, _⟩ => ⟨S50x256, .f32⟩
  | .hbm, ⟨22, _⟩ => ⟨S50x256, .f32⟩
  | .hbm, ⟨23, _⟩ => ⟨S_, .f32⟩
  | .hbm, ⟨24, _⟩ => ⟨S50, .f32⟩
  | .hbm, ⟨25, _⟩ => ⟨S50x1, .f32⟩
  | .hbm, ⟨26, _⟩ => ⟨S50x256, .f32⟩
  | .hbm, ⟨27, _⟩ => ⟨S50x256, .f32⟩
  | .hbm, ⟨28, _⟩ => ⟨S50x1x256, .f32⟩
  | .hbm, ⟨29, _⟩ => ⟨S50x32x256, .f32⟩
  | .hbm, ⟨30, _⟩ => ⟨S50x32x256, .f32⟩
  | .hbm, ⟨31, _⟩ => ⟨S256x50x32, .f32⟩
  | .hbm, ⟨32, _⟩ => ⟨S256x1600, .f32⟩
  | .hbm, ⟨33, _⟩ => ⟨S1x1600, .f32⟩
  | .hbm, ⟨34, _⟩ => ⟨S8192x256, .bf16⟩
  | .hbm, ⟨35, _⟩ => ⟨S256x1600, .bf16⟩
  | .hbm, ⟨36, _⟩ => ⟨S8192x1600, .f32⟩
  | .hbm, ⟨37, _⟩ => ⟨S8192x50x32, .f32⟩
  | .local _ .vmem, ⟨0, _⟩ => ⟨S512x256, .bf16⟩
  | .local _ .vmem, ⟨1, _⟩ => ⟨S512x256, .bf16⟩
  | .local _ .vmem, ⟨2, _⟩ => ⟨S256x1600, .bf16⟩
  | .local _ .vmem, ⟨3, _⟩ => ⟨S1x1600, .f32⟩
  | .local _ .vmem, ⟨4, _⟩ => ⟨S512x1600, .f32⟩
  | .local _ .vmem, ⟨5, _⟩ => ⟨S512x1600, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S50x32x256_S50x256_d1 : S50x32x256.ReducesTo [1] S50x256
  h_S_ : 0 < S_.numel
  bcast_S_S50x256 : S_.BroadcastsInDim S50x256 (![] : Fin 0 → Fin S50x256.rank)
  reducesTo_S50x256_S50_d1 : S50x256.ReducesTo [1] S50
  bcast_S_S50 : S_.BroadcastsInDim S50 (![] : Fin 0 → Fin S50.rank)
  bcast_S50_S50x1_0 : S50.BroadcastsInDim S50x1 (![0] : Fin 1 → Fin S50x1.rank)
  bcast_S50x1_S50x256_0_1 : S50x1.BroadcastsInDim S50x256 (![0, 1] : Fin 2 → Fin S50x256.rank)
  bcast_S50x256_S50x1x256_0_2 : S50x256.BroadcastsInDim S50x1x256 (![0, 2] : Fin 2 → Fin S50x1x256.rank)
  bcast_S50x1x256_S50x32x256_0_1_2 : S50x1x256.BroadcastsInDim S50x32x256 (![0, 1, 2] : Fin 3 → Fin S50x32x256.rank)
  transposes_S50x32x256_S256x50x32_2_0_1 : S50x32x256.Transposes [2, 0, 1] S256x50x32
  shapeCasts_S256x50x32_S256x1600 : S256x50x32.ShapeCasts S256x1600
  shapeCasts_S50x1x32_S1x1600 : S50x1x32.ShapeCasts S1x1600
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1600_S256x1600_0_0 : ∀ a, (![0, 0] : Fin 2 → Nat) a + S256x1600.size a ≤ S256x1600.size a
  h_S256x1600 : 0 < S256x1600.numel
  shapeCasts_S256x1600_S256x1600 : S256x1600.ShapeCasts S256x1600
  inb_S1x1600_S1x1600_0_0 : ∀ a, (![0, 0] : Fin 2 → Nat) a + S1x1600.size a ≤ S1x1600.size a
  h_S1x1600 : 0 < S1x1600.numel
  shapeCasts_S1x1600_S1x1600 : S1x1600.ShapeCasts S1x1600
  broadcasts_S1x1600_S512x1600 : S1x1600.Broadcasts S512x1600
  inb_S512x1600_S512x1600_0_0 : ∀ a, (![0, 0] : Fin 2 → Nat) a + S512x1600.size a ≤ S512x1600.size a
  h_S512x1600 : 0 < S512x1600.numel
  shapeCasts_S8192x1600_S8192x50x32 : S8192x1600.ShapeCasts S8192x50x32
  dot_S512x256_S256x1600_S512x1600_1_0_0_1_n_n_wf : DotDims.WF S512x256 S256x1600 S512x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1600.size a ≤ S256x1600.size a
  hwx0_1 : ∀ i : grid0.Coords, EltTy.bits .bf16 = 32 ∨ (Rect.block (s := S256x1600) S256x1600.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1600.size a ≤ S1x1600.size a
  hwx0_2 : ∀ i : grid0.Coords, EltTy.bits .f32 = 32 ∨ (Rect.block (s := S1x1600) S1x1600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1600.size a ≤ S8192x1600.size a
  hwx0_3 : ∀ i : grid0.Coords, EltTy.bits .f32 = 32 ∨ (Rect.block (s := S8192x1600) S512x1600.size (cc0_transform_3 i) (hinb0_3 i)).WholeWords (EltTy.packing .f32)

variable [Facts₀]

def dot_S512x256_S256x1600_S512x1600_1_0_0_1_n_n : DotDims S512x256 S256x1600 S512x1600 where
  lhsContracting := [1]
  rhsContracting := [0]
  lhsNonContracting := [0]
  rhsNonContracting := [1]
  lhsBatch := []
  rhsBatch := []
  wf := dot_S512x256_S256x1600_S512x1600_1_0_0_1_n_n_wf

abbrev win0_0 : Pipeline.Window sig grid0 :=
  Pipeline.Window.ofSpec (Memref.whole main_v25) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S256x1600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x1600.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S50x32x256 : Shape := ⟨3, ![50, 32, 256]⟩
abbrev S50x1x32 : Shape := ⟨3, ![50, 1, 32]⟩
abbrev S_ : Shape := ⟨0, ![]⟩
abbrev S50x256 : Shape := ⟨2, ![50, 256]⟩
abbrev S50 : Shape := ⟨1, ![50]⟩
abbrev S50x1 : Shape := ⟨2, ![50, 1]⟩
abbrev S1x8192x256 : Shape := ⟨3, ![1, 8192, 256]⟩
abbrev S50x1x256 : Shape := ⟨3, ![50, 1, 256]⟩
abbrev S50x8192x256 : Shape := ⟨3, ![50, 8192, 256]⟩
abbrev S50x8192x32 : Shape := ⟨3, ![50, 8192, 32]⟩
abbrev S8192x50x32 : Shape := ⟨3, ![8192, 50, 32]⟩

abbrev nBuf : Space → Nat
  | .hbm => 37
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S50x32x256, .f32⟩
  | .hbm, ⟨2, _⟩ => ⟨S50x1x32, .f32⟩
  | .hbm, ⟨3, _⟩ => ⟨S50x32x256, .f32⟩
  | .hbm, ⟨4, _⟩ => ⟨S_, .f32⟩
  | .hbm, ⟨5, _⟩ => ⟨S50x256, .f32⟩
  | .hbm, ⟨6, _⟩ => ⟨S_, .f32⟩
  | .hbm, ⟨7, _⟩ => ⟨S50x256, .f32⟩
  | .hbm, ⟨8, _⟩ => ⟨S50x256, .f32⟩
  | .hbm, ⟨9, _⟩ => ⟨S_, .f32⟩
  | .hbm, ⟨10, _⟩ => ⟨S50, .f32⟩
  | .hbm, ⟨11, _⟩ => ⟨S_, .f32⟩
  | .hbm, ⟨12, _⟩ => ⟨S50, .f32⟩
  | .hbm, ⟨13, _⟩ => ⟨S50, .f32⟩
  | .hbm, ⟨14, _⟩ => ⟨S50x1, .f32⟩
  | .hbm, ⟨15, _⟩ => ⟨S50x256, .f32⟩
  | .hbm, ⟨16, _⟩ => ⟨S50x256, .f32⟩
  | .hbm, ⟨17, _⟩ => ⟨S50x256, .f32⟩
  | .hbm, ⟨18, _⟩ => ⟨S_, .f32⟩
  | .hbm, ⟨19, _⟩ => ⟨S50, .f32⟩
  | .hbm, ⟨20, _⟩ => ⟨S50x1, .f32⟩
  | .hbm, ⟨21, _⟩ => ⟨S50x256, .f32⟩
  | .hbm, ⟨22, _⟩ => ⟨S50x256, .f32⟩
  | .hbm, ⟨23, _⟩ => ⟨S_, .f32⟩
  | .hbm, ⟨24, _⟩ => ⟨S50, .f32⟩
  | .hbm, ⟨25, _⟩ => ⟨S50x1, .f32⟩
  | .hbm, ⟨26, _⟩ => ⟨S50x256, .f32⟩
  | .hbm, ⟨27, _⟩ => ⟨S50x256, .f32⟩
  | .hbm, ⟨28, _⟩ => ⟨S1x8192x256, .f32⟩
  | .hbm, ⟨29, _⟩ => ⟨S50x1x256, .f32⟩
  | .hbm, ⟨30, _⟩ => ⟨S50x8192x256, .f32⟩
  | .hbm, ⟨31, _⟩ => ⟨S50x8192x256, .f32⟩
  | .hbm, ⟨32, _⟩ => ⟨S50x8192x256, .f32⟩
  | .hbm, ⟨33, _⟩ => ⟨S50x8192x32, .f32⟩
  | .hbm, ⟨34, _⟩ => ⟨S50x8192x32, .f32⟩
  | .hbm, ⟨35, _⟩ => ⟨S50x8192x32, .f32⟩
  | .hbm, ⟨36, _⟩ => ⟨S8192x50x32, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S50x32x256_S50x256_d1 : S50x32x256.ReducesTo [1] S50x256
  h_S_ : 0 < S_.numel
  bcast_S_S50x256 : S_.BroadcastsInDim S50x256 (![] : Fin 0 → Fin S50x256.rank)
  reducesTo_S50x256_S50_d1 : S50x256.ReducesTo [1] S50
  bcast_S_S50 : S_.BroadcastsInDim S50 (![] : Fin 0 → Fin S50.rank)
  bcast_S50_S50x1_0 : S50.BroadcastsInDim S50x1 (![0] : Fin 1 → Fin S50x1.rank)
  bcast_S50x1_S50x256_0_1 : S50x1.BroadcastsInDim S50x256 (![0, 1] : Fin 2 → Fin S50x256.rank)
  bcast_S8192x256_S1x8192x256_1_2 : S8192x256.BroadcastsInDim S1x8192x256 (![1, 2] : Fin 2 → Fin S1x8192x256.rank)
  bcast_S50x256_S50x1x256_0_2 : S50x256.BroadcastsInDim S50x1x256 (![0, 2] : Fin 2 → Fin S50x1x256.rank)
  bcast_S1x8192x256_S50x8192x256_0_1_2 : S1x8192x256.BroadcastsInDim S50x8192x256 (![0, 1, 2] : Fin 3 → Fin S50x8192x256.rank)
  bcast_S50x1x256_S50x8192x256_0_1_2 : S50x1x256.BroadcastsInDim S50x8192x256 (![0, 1, 2] : Fin 3 → Fin S50x8192x256.rank)
  bcast_S50x1x32_S50x8192x32_0_1_2 : S50x1x32.BroadcastsInDim S50x8192x32 (![0, 1, 2] : Fin 3 → Fin S50x8192x32.rank)
  transposes_S50x8192x32_S8192x50x32_1_0_2 : S50x8192x32.Transposes [1, 0, 2] S8192x50x32
  dot_S50x8192x256_S50x32x256_S50x8192x32_2_2_1_1_0_0_wf : DotDims.WF S50x8192x256 S50x32x256 S50x8192x32 [2] [2] [1] [1] [0] [0]

variable [Facts₀]

def dot_S50x8192x256_S50x32x256_S50x8192x32_2_2_1_1_0_0 : DotDims S50x8192x256 S50x32x256 S50x8192x32 where
  lhsContracting := [2]
  rhsContracting := [2]
  lhsNonContracting := [1]
  rhsNonContracting := [1]
  lhsBatch := [0]
  rhsBatch := [0]
  wf := dot_S50x8192x256_S50x32x256_S50x8192x32_2_2_1_1_0_0_wf

class Facts : Prop extends Facts₀ where

variable [Facts]
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Payload.lean ====
/-
  What the kernel body stores, read at one entry of its [512, 1600] output block: the product of the block of 512 rows
  of samples with the whole [256, 1600] matrix, accumulated from zero, plus the one row of offsets broadcast down the
  rows:   (p, n)  ↦  ∑ q < 256, x₀ (p, q) · x₁ (q, n)  +  x₂ (0, n).
-/
import proofs.«120659_j24635932410290_1_alg».proof.Proof.Gen.KernelIdeal.Skeleton
import proofs.«120659_j24635932410290_1_alg».proof.Proof.LibDotRowsCols
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Idealize.ShloMosaic.Pipeline

/-- The body's matrix product contracts the samples' axis 1 with the matrix's axis 0 and batches nothing. -/
theorem rowsCols : Cert.Lib.DotRowsCols.RowsCols (n := 512) (K := 256) (c := 1600) dot_S512x256_S256x1600_S512x1600_1_0_0_1_n_n :=
  ⟨rfl, rfl, rfl, rfl, rfl, rfl⟩

/-- The stored value at row p, column n of the block. -/
theorem pay_apply (x0 : Vec Ideal S512x256 .bf16) (x1 : Vec Ideal S256x1600 .bf16) (x2 : Vec Ideal S1x1600 .f32)
    (p : Fin 512) (n : Fin 1600) :
    k0_pay1 (F := Ideal) x0 x1 x2 (ix2 p n)
      = (∑ q : Fin 256, x0 (ix2 p q) * x1 (ix2 q n)) + x2 (ix2 ⟨0, Nat.one_pos⟩ n) := by
  unfold k0_pay1
  show (matmul (F := Ideal) dot_S512x256_S256x1600_S512x1600_1_0_0_1_n_n none (shapeCast S512x256 x0 shapeCasts_S512x256_S512x256)
        (shapeCast S256x1600 x1 shapeCasts_S256x1600_S256x1600) (constant S512x1600 .f32 0x00000000#32) (ix2 p n))
      + (broadcastTo S512x1600 (shapeCast S1x1600 x2 shapeCasts_S1x1600_S1x1600) broadcasts_S1x1600_S512x1600 (ix2 p n)) = _
  rw [shapeCast_self, shapeCast_self, shapeCast_self]
  refine congrArg₂ (· + ·) ?_ ?_
  · exact rowsCols.matmul_zero_apply none x0 x1 (ix2 p n)
  · exact broadcastTo_apply x2 broadcasts_S1x1600_S512x1600 (ix2 p n) (ix2 ⟨0, Nat.one_pos⟩ n) (fun a => match a with
      | ⟨0, _⟩ => by show 0 = if (1 : Nat) = 1 then 0 else _; rw [if_pos rfl]
      | ⟨1, _⟩ => by show n.val = if (1600 : Nat) = 1 then 0 else n.val; rw [if_neg (by decide)])

end Cert.KernelIdeal.Payload

end
-- ==== Proof.Spec.lean ====
/-
  The function both programs compute.

  Inputs: x [8192, 256], a stack of 50 weight matrices w [50, 32, 256], a bias [50, 1, 32], and a gate a [50, 256]
  (one row of non-negative scales per class; here it is left abstract: both programs derive it from w by the very same
  operations, and nothing below depends on what it holds).

  For sample b, class c, output o the result is

      out (b, c, o)  =  ∑ k < 256,  x (b, k) · (w (c, o, k) · a (c, k))   +   bias (c, 0, o).

  One program scales the WEIGHTS by the gate and multiplies x with the scaled, flattened [256, 1600] weight matrix;
  the other scales the SAMPLES by the gate, class by class, and multiplies with the unscaled weights. The two summands
  differ only in how the three factors are grouped and ordered, and on the extended reals multiplication is
  commutative and associative everywhere (the infinities included), so no finiteness is needed: `regroup`.
-/
import Idealize.ShloMosaic.PureOps.Ideal
import Idealize.ShloMosaic.Lib.ValueIdx

noncomputable section

open scoped BigOperators

namespace Cert.GatedLinear

open Idealize.ShloMosaic Idealize.ShloMosaic.ValueIdx

/-- The gated, per-class affine map, entry by entry. -/
def gated (x : (⟨2, ![8192, 256]⟩ : Shape).Idx → EReal) (w : (⟨3, ![50, 32, 256]⟩ : Shape).Idx → EReal)
    (a : (⟨2, ![50, 256]⟩ : Shape).Idx → EReal) (bias : (⟨3, ![50, 1, 32]⟩ : Shape).Idx → EReal) :
    (⟨3, ![8192, 50, 32]⟩ : Shape).Idx → EReal := fun j =>
  (∑ k : Fin 256, x (ix2 (j 0) k) * (w (ix3 (j 1) (j 2) k) * a (ix2 (j 1) k))) + bias (ix3 (j 1) ⟨0, Nat.one_pos⟩ (j 2))

/-- The flat product the tiled matrix multiplication computes: rows of X against columns of a [256, 1600] matrix, plus
    a row of 1600 offsets. -/
def flat (X : (⟨2, ![8192, 256]⟩ : Shape).Idx → EReal) (Wk : (⟨2, ![256, 1600]⟩ : Shape).Idx → EReal)
    (Bf : (⟨2, ![1, 1600]⟩ : Shape).Idx → EReal) : (⟨2, ![8192, 1600]⟩ : Shape).Idx → EReal := fun i =>
  (∑ k : Fin 256, X (ix2 (i 0) k) * Wk (ix2 k (i 1))) + Bf (ix2 ⟨0, Nat.one_pos⟩ (i 1))

/-- Scaling the sample first and then multiplying by the weight is multiplying the sample by the scaled weight. -/
theorem regroup (x w a : EReal) : x * a * w = x * (w * a) := by
  rw [mul_assoc, mul_comm a w]

/-- Column c·32 + o of the flat [.., 1600] layout, for class c < 50 and output o < 32. -/
def col (c : Fin 50) (o : Fin 32) : Fin 1600 := ⟨c.val * 32 + o.val, by have := c.isLt; have := o.isLt; omega⟩

theorem col_val (c : Fin 50) (o : Fin 32) : (col c o).val = c.val * 32 + o.val := rfl

end Cert.GatedLinear

end
-- ==== Proof.Blocks.lean ====
/-
  From the blocks to the whole [8192, 1600] array the region leaves.

  The grid has 16 points; point t stages rows 512·t … 512·t + 511 of the samples, the whole [256, 1600] matrix and the
  whole row of offsets, and writes back rows 512·t … 512·t + 511 of the output. What it writes back is therefore the
  block of ONE whole-array function, `flat` of the three arrays as the region finds them, and the 16 row blocks tile
  the output: the array ends holding `flat`.
-/
import proofs.«120659_j24635932410290_1_alg».proof.Proof.Gen.KernelIdeal.Frame
import proofs.«120659_j24635932410290_1_alg».proof.Proof.Payload
import proofs.«120659_j24635932410290_1_alg».proof.Proof.Spec

set_option maxRecDepth 16384

noncomputable section

open scoped BigOperators

namespace Cert.KernelIdeal.Blocks

open Cert.KernelIdeal Cert.KernelIdeal.Gen Cert.KernelIdeal.Payload Idealize.ShloMosaic Idealize.ShloMosaic.TcCoe
open Idealize.ShloMosaic.ValueIdx Idealize.ShloMosaic.Pipeline Idealize.SL.Sem Cert.GatedLinear

variable (m : (ℓ : Loc nD τ sig) → Buf (Elt Ideal) ℓ)

theorem hz : (![0, 0] : Fin 2 → Nat) = fun _ => 0 := funext fun a => by fin_cases a <;> rfl

/-- The printed index maps over the grid: the samples' block row is the output's, every other block index is 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every block row of the output is some point's. -/
theorem idx_onto : ∀ (q0 : Fin 16), ∃ t : Fin cfg0.N, win0_3.index t = ![q0.val, 0] :=
  (by decide +kernel : ∀ (q0 : Fin 16), ∃ t : Fin grid0.N, win0_3.index t = ![q0.val, 0])

/-- What point t writes back is its block of `flat` of the staged arrays. -/
theorem flushed3_eq (c : Dev nD) (t : Fin cfg0.N) :
    (dats m 0 c).flushed 3 t
      = ((cfg0.win 3).blk t).view.read (Elt Ideal) (flat (V m c main_v25) (V m c main_v26) (V m c main_v24)) := by
  show (cfg0.win 3).cut (grid0.coords t) ((dats m 0 c).after 3 t) = _
  rw [after0_3]
  unfold out0_3
  rw [View.canon_unit_zero hz]
  simp only [View.ld_unit_zero (S := S512x256) hz, View.ld_unit_zero (S := S256x1600) hz, View.ld_unit_zero (S := S1x1600) hz]
  obtain ⟨e0, e1, e2, e3, e4, e5, e6, e7⟩ := idx_facts t
  funext j
  obtain ⟨p, n, rfl⟩ : ∃ (p : Fin 512) (n : Fin 1600), j = ix2 p n := ⟨j 0, j 1, eq_ix2 j⟩
  show k0_pay1 (F := Ideal) (iblk m c 0 t) (iblk m c 1 t) (iblk m c 2 t) (ix2 p n)
    = flat (V m c main_v25) (V m c main_v26) (V m c main_v24) (((cfg0.win 3).blk t).view.emb (ix2 p n))
  refine (pay_apply (iblk m c 0 t) (iblk m c 1 t) (iblk m c 2 t) p n).trans ?_
  unfold flat
  have h0 : ∀ q : Fin 256, ((cfg0.win 0).blk t).view.emb (ix2 p q) = ix2 (((cfg0.win 3).blk t).view.emb (ix2 p n) 0) q := by
    intro q; funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 256 + 1 * q.val = q.val; omega
  have h1 : ∀ q : Fin 256, ((cfg0.win 1).blk t).view.emb (ix2 q n) = ix2 q (((cfg0.win 3).blk t).view.emb (ix2 p n) 1) := by
    intro q; funext a; apply Fin.ext
    match a with
    | ⟨0, _⟩ => show win0_1.index t (0 : Fin 2) * 256 + 1 * q.val = q.val; omega
    | ⟨1, _⟩ => show win0_1.index t (1 : Fin 2) * 1600 + 1 * n.val = win0_3.index t (1 : Fin 2) * 1600 + 1 * n.val; omega
  have h2 : ((cfg0.win 2).blk t).view.emb (ix2 ⟨0, Nat.one_pos⟩ n)
      = ix2 ⟨0, Nat.one_pos⟩ (((cfg0.win 3).blk t).view.emb (ix2 p n) 1) := by
    funext a; apply Fin.ext
    match a with
    | ⟨0, _⟩ => show win0_2.index t (0 : Fin 2) * 1 + 1 * 0 = 0; omega
    | ⟨1, _⟩ => show win0_2.index t (1 : Fin 2) * 1600 + 1 * n.val = win0_3.index t (1 : Fin 2) * 1600 + 1 * n.val; omega
  refine congrArg₂ (· + ·) (Finset.sum_congr rfl fun q _ => congrArg₂ (· * ·) ?_ ?_) ?_
  · show V m c main_v25 (((cfg0.win 0).blk t).view.emb (ix2 p q)) = _
    exact congrArg (V m c main_v25) (h0 q)
  · show V m c main_v26 (((cfg0.win 1).blk t).view.emb (ix2 q n)) = _
    exact congrArg (V m c main_v26) (h1 q)
  · show V m c main_v24 (((cfg0.win 2).blk t).view.emb (ix2 ⟨0, Nat.one_pos⟩ n)) = _
    exact congrArg (V m c main_v24) h2

/-- An index of the output array lies in point t's block iff each coordinate lies in the block's range on its axis. -/
theorem mem_blk3 (t : Fin cfg0.N) (i : S8192x1600.Idx) :
    i ∈ ((cfg0.win 3).blk t).view.set ↔ ∀ a : Fin 2, win0_3.index t a * S512x1600.size a ≤ (i a).val
      ∧ (i a).val < win0_3.index t a * S512x1600.size a + S512x1600.size a := by
  show i ∈ ((View.whole main_v27).slice (win0_3.rect t)).set ↔ _
  rw [View.set_slice_whole, Rect.mem_set_unit]
  exact Iff.rfl

/-- The sixteen row blocks tile the output: row r lies in the block of point r / 512. -/
theorem cover3 (i : S8192x1600.Idx) :
    ∃ t : Fin cfg0.N, (cfg0.win 3).flush t = true ∧ i ∈ ((cfg0.win 3).blk t).view.set := by
  have hi0 : (i 0).val < 8192 := (i 0).isLt
  have hi1 : (i 1).val < 1600 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1600 ≤ (i 1).val ∧ (i 1).val < win0_3.index t (1 : Fin 2) * 1600 + 1600; omega

/-- The output array after the region: `flat` of the three staged arrays as the region finds them. -/
theorem final3 (c : Dev nD) :
    (dats m 0 c).arrAt 3 cfg0.N = flat (V m c main_v25) (V m c main_v26) (V m c main_v24) :=
  (dats m 0 c).arrAt_eq_of_cover 3 (flat (V m c main_v25) (V m c main_v26) (V m c main_v24))
    (fun t _ => flushed3_eq m c t) cover3

end Cert.KernelIdeal.Blocks

end
-- ==== Proof.Staged.lean ====
/-
  The three arrays the region stages, as the host lines before it leave them, read at an entry.

  * the samples: the argument x itself (a change of float format is the identity on the extended reals);
  * the offsets: the bias [50, 1, 32] re-laid as one row [1, 1600], so column c·32 + o holds bias (c, 0, o);
  * the matrix: the weights scaled by the gate along the class and input axes, the input axis moved to the front and
    the (class, output) axes flattened, so row k, column c·32 + o holds  w (c, o, k) · a (c, k);
  * the gate a (buffer main_v18) is the same term of w that the reference's first eighteen operations compute.
-/
import proofs.«120659_j24635932410290_1_alg».proof.Proof.Gen.KernelIdeal.Frame
import proofs.«120659_j24635932410290_1_alg».proof.Proof.Gen.ReferenceIdeal.Read
import proofs.«120659_j24635932410290_1_alg».proof.Proof.Spec
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.ShloMosaic.StableHlo
open Idealize.ShloMosaic.ValueIdx Idealize.ShloMosaic.Pipeline Idealize.SL.Sem Cert.GatedLinear

variable (m : (ℓ : Loc nD τ sig) → Buf (Elt Ideal) ℓ)

/-- The three arguments and the gate's buffer on core c, at their literal types. -/
abbrev xArr (c : Dev nD) : S8192x256.Idx → EReal := m ((c : Thread nD τ).loc main_arg0)
abbrev wArr (c : Dev nD) : S50x32x256.Idx → EReal := m ((c : Thread nD τ).loc main_arg1)
abbrev bArr (c : Dev nD) : S50x1x32.Idx → EReal := m ((c : Thread nD τ).loc main_arg2)
abbrev gateArr (c : Dev nD) : S50x256.Idx → EReal := V m c main_v18
/-- The three staged arrays as the region finds them. -/
abbrev samplesArr (c : Dev nD) : S8192x256.Idx → EReal := V m c main_v25
abbrev matrixArr (c : Dev nD) : S256x1600.Idx → EReal := V m c main_v26
abbrev offsetsArr (c : Dev nD) : S1x1600.Idx → EReal := V m c main_v24

/-- The staged samples are the argument x. -/
theorem samples_apply (c : Dev nD) (i : S8192x256.Idx) : samplesArr m c i = xArr m c i := by
  show (StableHlo.after hostOps0 (fun b => m (c, b)) (Proc.devRef .tc main_v25) : S8192x256.Idx → EReal) i = _
  after_results_simp
  rfl

/-- The staged row of offsets at column c·32 + o is bias (c, 0, o): a re-laying keeps the row-major position. -/
theorem offsets_apply (c : Dev nD) (cl : Fin 50) (o : Fin 32) :
    offsetsArr m c (ix2 ⟨0, Nat.one_pos⟩ (col cl o)) = bArr m c (ix3 cl ⟨0, Nat.one_pos⟩ o) := by
  show (StableHlo.after hostOps0 (fun b => m (c, b)) (Proc.devRef .tc main_v24) : S1x1600.Idx → EReal) _ = _
  after_results_simp
  refine (shapeCast_apply (s := S50x1x32) (t := S1x1600) (bArr m c) shapeCasts_S50x1x32_S1x1600 (ix2 ⟨0, Nat.one_pos⟩ (col cl o))
    (ix3 cl ⟨0, Nat.one_pos⟩ o) ?_).trans rfl
  rw [Shape.rowMajor_val_three, Shape.rowMajor_val_two]
  show (cl.val * 1 + 0) * 32 + o.val = 0 * 1600 + (cl.val * 32 + o.val)
  omega

/-- Scaling the weights by a gate a along the class and input axes, moving the input axis to the front and flattening
    the (class, output) axes: row k, column c·32 + o of the result holds w (c, o, k) · a (c, k). -/
theorem scaled_apply (w : S50x32x256.Idx → EReal) (A : S50x256.Idx → EReal) (k : Fin 256) (cl : Fin 50) (o : Fin 32) :
    (truncf (F := Ideal) .bf16 (shapeCast S256x1600 (transpose S256x50x32 [2, 0, 1]
        (mulf (F := Ideal) (φ := .f32) w (broadcastInDim S50x32x256 ![0, 1, 2] bcast_S50x1x256_S50x32x256_0_1_2
          (broadcastInDim S50x1x256 ![0, 2] bcast_S50x256_S50x1x256_0_2 A)))
        transposes_S50x32x256_S256x50x32_2_0_1) shapeCasts_S256x50x32_S256x1600) bitsLt_bf16_f32 : S256x1600.Idx → EReal)
      (ix2 k (col cl o)) = w (ix3 cl o k) * A (ix2 cl k) := by
  refine (truncf_apply (φ := .f32) (ψ := .bf16) _ bitsLt_bf16_f32 _).trans ?_
  refine (shapeCast_apply (s := S256x50x32) (t := S256x1600) _ shapeCasts_S256x50x32_S256x1600 (ix2 k (col cl o)) (ix3 k cl o) ?_).trans ?_
  · rw [Shape.rowMajor_val_three, Shape.rowMajor_val_two]
    show (k.val * 50 + cl.val) * 32 + o.val = k.val * 1600 + (cl.val * 32 + o.val)
    omega
  refine (transpose_apply [2, 0, 1] _ transposes_S50x32x256_S256x50x32_2_0_1 (ix3 k cl o) (ix3 cl o k) (fun b => match b with
    | ⟨0, _⟩ => rfl
    | ⟨1, _⟩ => rfl
    | ⟨2, _⟩ => rfl)).trans ?_
  refine (mulf_apply _ _ _).trans (congrArg (w (ix3 cl o k) * ·) ?_)
  refine (broadcastInDim_apply ![0, 1, 2] bcast_S50x1x256_S50x32x256_0_1_2 _ (ix3 cl o k) (ix3 cl ⟨0, Nat.one_pos⟩ k) (fun a => match a with
    | ⟨0, _⟩ => by show cl.val = if (50 : Nat) = 1 then 0 else cl.val; rw [if_neg (by decide)]
    | ⟨1, _⟩ => by show 0 = if (1 : Nat) = 1 then 0 else o.val; rw [if_pos rfl]
    | ⟨2, _⟩ => by show k.val = if (256 : Nat) = 1 then 0 else k.val; rw [if_neg (by decide)])).trans ?_
  exact broadcastInDim_apply ![0, 2] bcast_S50x256_S50x1x256_0_2 A (ix3 cl ⟨0, Nat.one_pos⟩ k) (ix2 cl k) (fun a => match a with
    | ⟨0, _⟩ => by show cl.val = if (50 : Nat) = 1 then 0 else cl.val; rw [if_neg (by decide)]
    | ⟨1, _⟩ => by show k.val = if (256 : Nat) = 1 then 0 else k.val; rw [if_neg (by decide)])

/-- The staged matrix at row k, column c·32 + o is w (c, o, k) · a (c, k), a the contents of the gate's buffer. -/
theorem matrix_apply (c : Dev nD) (k : Fin 256) (cl : Fin 50) (o : Fin 32) :
    matrixArr m c (ix2 k (col cl o)) = wArr m c (ix3 cl o k) * gateArr m c (ix2 cl k) := by
  show (StableHlo.after hostOps0 (fun b => m (c, b)) (Proc.devRef .tc main_v26) : S256x1600.Idx → EReal) _
    = _ * (StableHlo.after hostOps0 (fun b => m (c, b)) (Proc.devRef .tc main_v18) : S50x256.Idx → EReal) _
  after_results_simp
  exact scaled_apply (wArr m c) _ k cl o

/-- The gate the kernel's host lines compute is the gate the reference's compute: the same eighteen operations of w. -/
theorem gate_eq (c : Dev nD) :
    gateArr m c = Cert.ReferenceIdeal.Read.val_main_v18 (F := Ideal) (wArr m c) := by
  show (StableHlo.after hostOps0 (fun b => m (c, b)) (Proc.devRef .tc main_v18) : S50x256.Idx → EReal) = _
  after_results_simp
  rfl

end Cert.KernelIdeal.Staged

end
-- ==== Proof.KernelGated.lean ====
/-
  The kernel program's result is the gated affine map.

  After the region the one remaining host line re-lays the [8192, 1600] array as [8192, 50, 32]: entry (b, c, o) of the
  result is entry (b, c·32 + o) of the array the region left, which is `flat` of the staged arrays. Substituting what the
  staged arrays hold — the samples x, the matrix w (c, o, k) · a (c, k) at (k, c·32 + o), the offsets bias (c, 0, o) at
  column c·32 + o — gives the specification's entry, with the gate a the reference's own.
-/
import proofs.«120659_j24635932410290_1_alg».proof.Proof.Blocks
import proofs.«120659_j24635932410290_1_alg».proof.Proof.Staged

noncomputable section

open scoped BigOperators

namespace Cert.KernelIdeal.Result

open Cert.KernelIdeal Cert.KernelIdeal.Gen Cert.KernelIdeal.Blocks Cert.KernelIdeal.Staged
open Idealize.ShloMosaic Idealize.ShloMosaic.TcCoe Idealize.ShloMosaic.StableHlo
open Idealize.ShloMosaic.ValueIdx Idealize.ShloMosaic.Pipeline Idealize.SL.Sem Cert.GatedLinear

variable (m : (ℓ : Loc nD τ sig) → Buf (Elt Ideal) ℓ) (ρ : Dev nD → PrngReg)

/-- The result buffer after the tail, at its literal type. -/
abbrev resArr (c : Dev nD) : S8192x50x32.Idx → EReal :=
  Pipeline.afterTail₀ cfgs (dats m) 0 (V0 m) [hostOps1] c main_v28

/-- Entry (b, c, o) of the result is entry (b, c·32 + o) of the flat product. -/
theorem result_apply (c : Dev nD) (i : S8192x50x32.Idx) :
    resArr m c i = flat (samplesArr m c) (matrixArr m c) (offsetsArr m c) (ix2 (i 0) (col (i 1) (i 2))) := by
  unfold resArr Pipeline.afterTail₀
  show (StableHlo.after hostOps1 (Pipeline.withArrays spec0 c (V0 m c) fun w => (dats m 0 c).arrAt w cfg0.N)
      (Proc.devRef .tc main_v28) : S8192x50x32.Idx → EReal) i = _
  after_results
  have e : (Pipeline.withArrays spec0 c (V0 m c) (fun w => (dats m 0 c).arrAt w cfg0.N) (Proc.devRef .tc main_v27)
        : S8192x1600.Idx → EReal) = flat (samplesArr m c) (matrixArr m c) (offsetsArr m c) :=
    (Pipeline.withArrays_arr spec0 launch0.win.arr_inj c (V0 m c) (fun w => (dats m 0 c).arrAt w cfg0.N) 3).trans (final3 m c)
  refine (shapeCast_apply (s := S8192x1600) (t := S8192x50x32)
    (Pipeline.withArrays spec0 c (V0 m c) (fun w => (dats m 0 c).arrAt w cfg0.N) (Proc.devRef .tc main_v27) : S8192x1600.Idx → EReal)
    shapeCasts_S8192x1600_S8192x50x32 i (ix2 (i 0) (col (i 1) (i 2))) ?_).trans (congrFun e _)
  rw [Shape.rowMajor_val_two, Shape.rowMajor_val_three]
  show (i 0).val * 1600 + ((i 1).val * 32 + (i 2).val) = ((i 0).val * 50 + (i 1).val) * 32 + (i 2).val
  omega

/-- The kernel program's result is the gated affine map of the arguments, at the reference's gate. -/
theorem kernel_is_gated (c : Dev nD) :
    resArr m c = gated (xArr m c) (wArr m c) (Cert.ReferenceIdeal.Read.val_main_v18 (F := Ideal) (wArr m c)) (bArr m c) := by
  funext i
  rw [result_apply, ← gate_eq]
  unfold flat gated
  refine congrArg₂ (· + ·) (Finset.sum_congr rfl fun k _ => ?_) (offsets_apply m c (i 1) (i 2))
  exact congrArg₂ (· * ·) (samples_apply m c (ix2 (i 0) k)) (matrix_apply m c k (i 1) (i 2))

/-- Every weakly fair execution of the kernel program terminates with its result at the gated affine map of the
    arguments and the arguments unchanged. -/
theorem run : θ_run defs (onTc (τ := τ) (main (F := Ideal))) ⟨m, fun _ => 0, ρ⟩ fun r => ∀ c : Dev nD,
      r.2.mem ((c.tc : Thread nD τ).loc main_v28)
        = gated (xArr m c) (wArr m c) (Cert.ReferenceIdeal.Read.val_main_v18 (F := Ideal) (wArr m c)) (bArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v28 (Pipeline.mem_restRefs_of main_v28 (by decide) (by decide))).trans (kernel_is_gated m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefGated.lean ====
/-
  The reference program's result, entry by entry, is the gated affine map of the specification: at (b, c, o) it adds the
  bias to the sum over k of (x (b, k) · a (c, k)) · w (c, o, k) — the samples scaled by the gate first, a product batched
  over the class axis, and a final exchange of the sample and class axes — which is the specification's summand with
  its three factors regrouped. The gate a is whatever the reference's own first eighteen operations make of w.
-/
import proofs.«120659_j24635932410290_1_alg».proof.Proof.Gen.ReferenceIdeal.Read
import proofs.«120659_j24635932410290_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.GatedLinear

/-- The sample the reference's product reads at result entry i and contraction position k is x (b, k). -/
theorem sample_idx (i : S8192x50x32.Idx) (k : Fin 256) :
    idx_main_v19 (idx_main_v21 (lidx_main_v24 (idx_main_v27 i) k)) = ix2 (i 0) k :=
  funext fun a => match a with | ⟨0, _⟩ => rfl | ⟨1, _⟩ => rfl

/-- The gate entry it reads there is a (c, k). -/
theorem gate_idx (i : S8192x50x32.Idx) (k : Fin 256) :
    idx_main_v20 (idx_main_v22 (lidx_main_v24 (idx_main_v27 i) k)) = ix2 (i 1) k :=
  funext fun a => match a with | ⟨0, _⟩ => rfl | ⟨1, _⟩ => rfl

/-- The weight entry is w (c, o, k). -/
theorem weight_idx (i : S8192x50x32.Idx) (k : Fin 256) :
    ridx_main_v24 (idx_main_v27 i) k = ix3 (i 1) (i 2) k :=
  funext fun a => match a with | ⟨0, _⟩ => rfl | ⟨1, _⟩ => rfl | ⟨2, _⟩ => rfl

/-- The bias entry is bias (c, 0, o). -/
theorem bias_idx (i : S8192x50x32.Idx) :
    idx_main_v25 (idx_main_v27 i) = ix3 (i 1) ⟨0, Nat.one_pos⟩ (i 2) :=
  funext fun a => match a with | ⟨0, _⟩ => rfl | ⟨1, _⟩ => rfl | ⟨2, _⟩ => rfl

/-- The reference's result is the gated affine map at its own gate. -/
theorem ref_is_gated (x : (⟨S8192x256, .f32⟩ : BufTy).Contents (Elt Ideal)) (w : (⟨S50x32x256, .f32⟩ : BufTy).Contents (Elt Ideal))
    (bias : (⟨S50x1x32, .f32⟩ : BufTy).Contents (Elt Ideal)) :
    val_main_v27 (F := Ideal) x w bias = gated x w (val_main_v18 (F := Ideal) w) bias := by
  funext i
  rw [val_main_v27_apply, val_main_v26_apply, val_main_v24_apply, val_main_v25_apply, bias_idx]
  unfold gated
  show (∑ k : Fin 256, val_main_v23 (F := Ideal) x w (lidx_main_v24 (idx_main_v27 i) k) * w (ridx_main_v24 (idx_main_v27 i) k))
      + bias (ix3 (i 1) ⟨0, Nat.one_pos⟩ (i 2)) = _
  refine congrArg (· + bias (ix3 (i 1) ⟨0, Nat.one_pos⟩ (i 2))) (Finset.sum_congr rfl fun k _ => ?_)
  rw [val_main_v23_apply, val_main_v21_apply, val_main_v19_apply, val_main_v22_apply, val_main_v20_apply,
    sample_idx, gate_idx, weight_idx]
  exact regroup _ _ _

end Cert.ReferenceIdeal.RefValue

end
-- ==== Proof.lean ====
/-
  The certificate of a gated, per-class linear layer.

  Both programs first turn the weights w [50, 32, 256] into a gate a [50, 256] (column sums of |w| over the output axis,
  a softmax along the input axis at temperature 0.6, each row divided by its maximum) by the very same operations.
  The kernel program then scales the WEIGHTS by the gate, flattens the (class, output) axes into 1600 columns and runs
  one tiled matrix product x · W' + bias over 16 blocks of 512 rows; the reference scales the SAMPLES by the gate, class
  by class, and multiplies with the unscaled weights. Entry (b, c, o) of either result is

      ∑ k < 256,  x (b, k) · w (c, o, k) · a (c, k)   +   bias (c, 0, o),

  the three factors grouped differently; on the extended reals multiplication is commutative and associative, the
  infinities included, so the two results agree entry by entry without any use of the inputs' finiteness.

  Modules: Spec (the function, the regrouping law), Payload (the kernel body's store at an entry), Blocks (the blocks
  tile the array: the region leaves the flat product), Staged (what the host lines before the region stage, and that
  the kernel's gate is the reference's), KernelGated (the kernel program's run), RefGated (the reference program's
  result); LibDotRowsCols reads a rows-by-columns product at an entry.
-/
import proofs.«120659_j24635932410290_1_alg».proof.Defs
import proofs.«120659_j24635932410290_1_alg».proof.Proof.Gen.Kernel
import proofs.«120659_j24635932410290_1_alg».proof.Proof.Gen.Kernel.Skeleton
import proofs.«120659_j24635932410290_1_alg».proof.Proof.Gen.Kernel.Launch
import proofs.«120659_j24635932410290_1_alg».proof.Proof.Gen.Kernel.Points
import proofs.«120659_j24635932410290_1_alg».proof.Proof.Gen.Kernel.Frame
import proofs.«120659_j24635932410290_1_alg».proof.Proof.Gen.KernelIdeal
import proofs.«120659_j24635932410290_1_alg».proof.Proof.Gen.KernelIdeal.Skeleton
import proofs.«120659_j24635932410290_1_alg».proof.Proof.Gen.KernelIdeal.Launch
import proofs.«120659_j24635932410290_1_alg».proof.Proof.Gen.KernelIdeal.Points
import proofs.«120659_j24635932410290_1_alg».proof.Proof.Gen.KernelIdeal.Frame
import proofs.«120659_j24635932410290_1_alg».proof.Proof.Gen.ReferenceIdeal
import proofs.«120659_j24635932410290_1_alg».proof.Proof.Gen.Pre_finite_inputs
import proofs.«120659_j24635932410290_1_alg».proof.Proof.Gen.ReferenceIdeal.Run
import proofs.«120659_j24635932410290_1_alg».proof.Proof.Gen.ReferenceIdeal.Read
import proofs.«120659_j24635932410290_1_alg».proof.Proof.KernelGated
import proofs.«120659_j24635932410290_1_alg».proof.Proof.RefGated
import Idealize.ShloMosaic.Adequacy
import Idealize.ShloMosaic.Init

noncomputable section

namespace Cert.Proof

open Idealize.ShloMosaic Idealize.SL.Sem

/-- The word-level kernel program terminates, faults nowhere and keeps its arguments. -/
theorem frame_kernel [Cert.Kernel.Facts] [Cert.Pre_finite_inputs.Facts] : Cert.frame_Kernel :=
  fun m ρ _ => Cert.Kernel.Gen.frame m ρ

/-- So does the kernel program read on the extended reals. -/
theorem frame_kernelIdeal [Cert.KernelIdeal.Facts] [Cert.Pre_finite_inputs.Facts] : Cert.frame_KernelIdeal :=
  fun m ρ _ => Cert.KernelIdeal.Gen.frame m ρ

/-- And the reference: its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the gated affine map of the (agreeing) arguments in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.ref_is_gated,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
